-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_v8 : IVec S_ 1) (main_v17 : IVec S640000 1) : IVec S_ 1 :=
  let main_c_4 : IVec S_ 1 := constantI S_ 1 1#1
  let main_v18 : IVec S_ 1 := (fun x v => Host.reduce IntOp.andi x v reducesTo_S640000_S_d0 h_S_) main_v17 main_c_4
  let main_v19 : IVec S_ 1 := andi main_v8 main_v18
  main_v19

def fn {F : FTy → Type} [FloatOps F] (main_arg0 : FVec F S100000x128 .f32) (main_arg1 : IVec S2x640000 32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : IVec S1x640000 32 := (extractStridedSlice S1x640000 ![1, 0] · slices_S2x640000_S1x640000_1_0) main_arg1
  let main_v10 : IVec S640000 32 := shapeCast S640000 main_v9 shapeCasts_S1x640000_S640000
  let main_c_2 : IVec S_ 32 := constantI S_ 32 4294867296#32
  let main_v11 : IVec S640000 32 := broadcastInDim S640000 ![] bcast_S_S640000 main_c_2
  let main_v12 : IVec S640000 1 := cmpi .sge main_v10 main_v11
  let main_v13 : IVec S1x640000 32 := (extractStridedSlice S1x640000 ![1, 0] · slices_S2x640000_S1x640000_1_0) main_arg1
  let main_v14 : IVec S640000 32 := shapeCast S640000 main_v13 shapeCasts_S1x640000_S640000
  let main_c_3 : IVec S_ 32 := constantI S_ 32 100000#32
  let main_v15 : IVec S640000 32 := broadcastInDim S640000 ![] bcast_S_S640000 main_c_3
  let main_v16 : IVec S640000 1 := cmpi .slt main_v14 main_v15
  let main_v17 : IVec S640000 1 := andi main_v12 main_v16
  fn_part1 (F := F) main_v8 main_v17
-- ==== Kernel.lean ====
abbrev S100000x128 : Shape := ⟨2, ![100000, 128]⟩
abbrev S2x640000 : Shape := ⟨2, ![2, 640000]⟩
abbrev S128x128 : Shape := ⟨2, ![128, 128]⟩
abbrev S5000x128 : Shape := ⟨2, ![5000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩

abbrev nBuf : Space → Nat
  | .hbm => 36
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S100000x128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S1, .i32⟩
  | .hbm, ⟨17, _⟩ => ⟨S_, .i32⟩
  | .hbm, ⟨18, _⟩ => ⟨S640000x1, .i32⟩
  | .hbm, ⟨19, _⟩ => ⟨S640000x1, .i1⟩
  | .hbm, ⟨20, _⟩ => ⟨S1x1, .i32⟩
  | .hbm, ⟨21, _⟩ => ⟨S640000x1, .i32⟩
  | .hbm, ⟨22, _⟩ => ⟨S640000x1, .i1⟩
  | .hbm, ⟨23, _⟩ => ⟨S640000x1, .i1⟩
  | .hbm, ⟨24, _⟩ => ⟨S_, .i1⟩
  | .hbm, ⟨25, _⟩ => ⟨S640000, .i1⟩
  | .hbm, ⟨26, _⟩ => ⟨S640000x128, .f32⟩
  | .hbm, ⟨27, _⟩ => ⟨S640000x128, .i1⟩
  | .hbm, ⟨28, _⟩ => ⟨S_, .f32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S100000x128, .f32⟩
  | .hbm, ⟨33, _⟩ => ⟨S640000x1, .i32⟩
  | .hbm, ⟨34, _⟩ => ⟨S100000x128, .f32⟩
  | .hbm, ⟨35, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩

abbrev nBuf : Space → Nat
  | .hbm => 24
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S100000x128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.PreDecode.lean ====
/-
  What the precondition says of the edge table. Besides the finiteness of the two float arrays, the precondition asks
  that every entry s of row 1 of the edge table (the source node of an edge) satisfies -100000 ≤ s < 100000, read as
  signed 32-bit words. It is printed as a conjunction of three reductions by "and"; the third one is taken apart here:
  the whole predicate is 1, so the reduction is 1, so every compared entry passed both comparisons.
-/
import proofs.«410903_j59081570123777_1_alg».proof.Pre_finite_inputs
import Idealize.ShloMosaic.Lib.ReduceAll
import Idealize.ShloMosaic.Lib.Affine
import Idealize.ShloMosaic.Lib.ValueIdx

set_option maxRecDepth 16384

noncomputable section

namespace Cert.Pre_finite_inputs.Decode

open Cert.Pre_finite_inputs Cert.Pre_finite_inputs.Facts Idealize.ShloMosaic Idealize.ShloMosaic.ValueIdx

variable [Facts] {F : FTy → Type} [FloatOps F]

/-- A rank-zero array has one index. -/
instance scalarIdx : Subsingleton S_.Idx := ⟨fun a b => funext fun d => d.elim0⟩

/-- Row 1 of the edge table, as the precondition reads it: the source node of every edge. -/
def sourceRow (adj : IVec S2x640000 32) : IVec S640000 32 :=
  shapeCast S640000 (extractStridedSlice S1x640000 ![1, 0] adj slices_S2x640000_S1x640000_1_0) shapeCasts_S1x640000_S640000

/-- Under the precondition every source index lies between -100000 and 99999 (as signed words). -/
theorem sources_in_range (a0 : FVec F S100000x128 .f32) (a1 : IVec S2x640000 32) (a2 : FVec F S128x128 .f32)
    (h : fn (F := F) a0 a1 a2 = fun _ => 1#1) (k : S640000.Idx) :
    IntOp.cmpi .sge (sourceRow a1 k) 4294867296#32 = 1#1 ∧ IntOp.cmpi .slt (sourceRow a1 k) 100000#32 = 1#1 := by
  have h0 := congrFun h ix0
  dsimp only [fn, fn_part1] at h0
  obtain ⟨-, h1⟩ := IntOp.andi_eq_one.1 h0
  have h2 := Host.reduce_andi_all _ _ _ _ _ h1 k
  exact IntOp.andi_eq_one.1 h2

end Cert.Pre_finite_inputs.Decode

end
-- ==== Proof.LibMatmulMixed.lean ====
/-
  A matrix product with ONE contracted axis, into the zero accumulator, read at an entry of a rank-two result, for
  operands of ANY two float formats and any contraction precision (over the extended reals neither the formats nor the
  precision enter the value).

  At entry (p, n) the product is the sum over the contracted coordinate k of the left operand at L k times the right
  operand at R k, once the operand indices at the contraction position whose one coordinate is k are known to be
  L k and R k.
-/
import Idealize.ShloMosaic.Lib.Pipeline.Value
import Idealize.ShloMosaic.Lib.ValueIdx
import Idealize.ShloMosaic.PureOps.Ideal.Laws

noncomputable section

namespace Cert.LibMatmulMixed

open Idealize.ShloMosaic Idealize.ShloMosaic.ValueIdx
open scoped BigOperators

/-- A product of a `φ₁` operand and a `φ₂` operand with one contracted axis of extent K, into the zero accumulator,
    at entry (p, n): the sum over k of the left operand at L k times the right at R k. -/
theorem matmul_zero_entry {sl sr : Shape} {φ₁ φ₂ : FTy} {M N K : ℕ} (D : DotDims sl sr ⟨2, ![M, N]⟩)
    (prec : Option ContractPrecision) (hr : D.contr.rank = 1) (hs : D.contr.size ⟨0, by omega⟩ = K)
    (l : FVec Ideal sl φ₁) (r : FVec Ideal sr φ₂) (p : Fin M) (n : Fin N) (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D prec l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

end Cert.LibMatmulMixed

end
-- ==== Proof.Projection.lean ====
/-
  The projection stage of the kernel program. The first pipelined call multiplies, one block of 5000 rows at a time,
  the rows of the input X with the whole weight matrix W. Over the extended reals the narrowing of both operands to a
  shorter float format is the identity, and a matrix product into a zero accumulator is the plain sum over the
  contracted coordinate. So what grid point t writes back is rows 5000·t … 5000·t + 4999 of the full product X·W, and
  since the twenty blocks tile the 100000 rows, the array the call leaves is X·W, entry by entry.
-/
import proofs.«410903_j59081570123777_1_alg».proof.Proof.Gen.KernelIdeal.Frame
import proofs.«410903_j59081570123777_1_alg».proof.Proof.LibMatmulMixed
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The full product X·W: entry (r, n) is the sum over k of X(r, k) · W(k, n). -/
def product (x : Vec Ideal S100000x128 .f32) (w : Vec Ideal S128x128 .f32) : Vec Ideal S100000x128 .f32 :=
  fun i => ∑ k : Fin 128, x (ix2 (i 0) k) * w (ix2 k (i 1))

/-! ## Which operand entries a block product reads -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry (p, q) of a block: the sum over k of the row block at (p, k) times the weight at
    (k, q). The narrowing of the operands does not change an extended real. -/
theorem stored_entry (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Cert.LibMatmulMixed.matmul_zero_entry dot_S5000x128_S128x128_S5000x128_1_0_0_1_n_n none rfl rfl _ _ p q
    (fun k => ix2 p k) (fun k => ix2 k q) ?_ ?_).trans ?_
  · intro k q' hk
    funext a; apply Fin.ext
    match a with
    | ⟨0, _⟩ => exact lhs_axis0 _ _
    | ⟨1, _⟩ => exact (lhs_axis1 _ _).trans hk
  · intro k q' hk
    funext a; apply Fin.ext
    match a with
    | ⟨0, _⟩ => exact (rhs_axis0 _ _).trans hk
    | ⟨1, _⟩ => exact rhs_axis1 _ _
  · rfl

/-- The same at any index of the block. -/
theorem stored_at (x0 : Vec Ideal S5000x128 .f32) (x1 : Vec Ideal S128x128 .f32) (j : S5000x128.Idx) :
    k0_pay1 x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  exact stored_entry x0 x1 p q

/-- A block's stored entry is the full product's entry, once the block's row of the left operand and column of the
    right operand are the full arrays' row and column. -/
theorem block_entry (X : Vec Ideal S100000x128 .f32) (W : Vec Ideal S128x128 .f32) (x0 : Vec Ideal S5000x128 .f32)
    (x1 : Vec Ideal S128x128 .f32) (j : S5000x128.Idx) (i : S100000x128.Idx)
    (hrow : ∀ k : Fin 128, x0 (ix2 (j 0) k) = X (ix2 (i 0) k)) (hcol : ∀ k : Fin 128, x1 (ix2 k (j 1)) = W (ix2 k (i 1))) :
    k0_pay1 x0 x1 j = product X W i := by
  rw [stored_at]
  unfold product
  exact Finset.sum_congr rfl fun k _ => by rw [hrow k, hcol k]

/-! ## The blocks' positions -/

theorem zero_offsets : (![0, 0] : Fin 2 → Nat) = fun _ => 0 := funext fun a => by fin_cases a <;> rfl

/-- The printed index maps over the grid: the row block of X moves with the output's row block, the weight's block
    and every column block stay at 0, and the output's row block is below 20. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every one of the twenty row blocks is some grid point's. -/
theorem every_block : ∀ q0 : Fin 20, ∃ t : Fin cfg0.N, win0_2.index t = ![q0.val, 0] :=
  (by decide +kernel : ∀ q0 : Fin 20, ∃ t : Fin grid0.N, win0_2.index t = ![q0.val, 0])

section Region
variable (V : (c : Dev nD) → (b : Ref sig .tc) → Buf (Elt Ideal) ((c : Thread nD τ).loc b))

/-- What grid point t writes back is block t of the full product of the arrays the call finds. -/
theorem written_back (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_maps t
  funext j
  have h0 : ∀ k : Fin 128, ((cfg0.win 0).blk t).view.emb (ix2 (j 0) k) = ix2 ((((cfg0.win 2).blk t).view.emb j) 0) k := fun k => by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 2).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact block_entry (V c main_arg0) (V c main_arg2) (iblk0 V c 0 t) (iblk0 V c 1 t) j (((cfg0.win 2).blk t).view.emb j)
    (fun k => congrArg (V c main_arg0) (h0 k)) (fun k => congrArg (V c main_arg2) (h1 k))

/-- An index of the result array lies in point t's block iff each coordinate lies in the block's range. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every entry of the result array is written back by the point of its row block, row / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := every_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY THE FIRST CALL LEAVES: the full product X·W of the arrays it finds. -/
theorem result (c : Dev nD) : (dat0 V c).arrAt 2 cfg0.N = product (V c main_arg0) (V c main_arg2) :=
  (dat0 V c).arrAt_eq_of_cover 2 _ (fun t _ => written_back V c t) covered

end Region

end Cert.KernelIdeal.Projection

end
-- ==== Proof.Activation.lean ====
/-
  The activation stage of the kernel program. The second pipelined call takes, one block of 5000 rows at a time, the
  maximum of every entry of its input array with zero. Block t of the input and block t of the output are the same
  rows, and the twenty blocks tile the 100000 rows, so the array the call leaves is the entrywise maximum with zero of
  the array it finds.
-/
import proofs.«410903_j59081570123777_1_alg».proof.Proof.Gen.KernelIdeal.Frame
import Idealize.ShloMosaic.Lib.Pipeline.Value
import Idealize.ShloMosaic.Lib.ValueIdx

set_option maxRecDepth 16384

noncomputable section

namespace Cert.KernelIdeal.Activation

open Cert.KernelIdeal Cert.KernelIdeal.Gen Idealize.ShloMosaic Idealize.ShloMosaic.TcCoe Idealize.ShloMosaic.ValueIdx
open Idealize.SL.Sem
open Idealize.ShloMosaic.Pipeline (Dat)

/-- The entrywise maximum with zero. -/
def positivePart (v : Vec Ideal S100000x128 .f32) : Vec Ideal S100000x128 .f32 :=
  fun i => max (v i) (Ideal.ofBits .f32 0x00000000#32)

/-- The body's stored value at an index of a block: the maximum of the loaded entry with zero (the reshape to the
    same shape is the identity). -/
theorem stored_at (x : Vec Ideal S5000x128 .f32) (j : S5000x128.Idx) :
    k1_pay1 x j = max (x j) (Ideal.ofBits .f32 0x00000000#32) := by
  unfold k1_pay1
  rw [shapeCast_self]
  rfl

theorem zero_offsets : (![0, 0] : Fin 2 → Nat) = fun _ => 0 := funext fun a => by fin_cases a <;> rfl

/-- The printed index maps over the grid: the input's block moves with the output's, the column block stays at 0,
    and the output's row block is below 20. -/
theorem index_maps : ∀ t : Fin cfg1.N,
    win1_0.index t (0 : Fin 2) = win1_1.index t (0 : Fin 2) ∧ win1_0.index t (1 : Fin 2) = win1_1.index t (1 : Fin 2)
    ∧ win1_1.index t (1 : Fin 2) = 0 ∧ win1_1.index t (0 : Fin 2) ≤ 19 :=
  (by decide +kernel : ∀ t : Fin grid1.N, _)

/-- Every one of the twenty row blocks is some grid point's. -/
theorem every_block : ∀ q0 : Fin 20, ∃ t : Fin cfg1.N, win1_1.index t = ![q0.val, 0] :=
  (by decide +kernel : ∀ q0 : Fin 20, ∃ t : Fin grid1.N, win1_1.index t = ![q0.val, 0])

section Region
variable (V : (c : Dev nD) → (b : Ref sig .tc) → Buf (Elt Ideal) ((c : Thread nD τ).loc b))

/-- What grid point t writes back is block t of the positive part of the array the call finds. -/
theorem written_back (c : Dev nD) (t : Fin cfg1.N) :
    (dat1 V c).flushed 1 t = ((cfg1.win 1).blk t).view.read (Elt Ideal) (positivePart (V c main_v8)) := by
  show (cfg1.win 1).cut (grid1.coords t) ((dat1 V c).after 1 t) = _
  rw [after1_1]
  unfold out1_1
  rw [View.canon_unit_zero zero_offsets]
  simp only [View.ld_unit_zero (S := S5000x128) zero_offsets]
  obtain ⟨e0, e1, e2, e3⟩ := index_maps t
  funext j
  refine (stored_at (iblk1 V c 0 t) j).trans ?_
  show positivePart (V c main_v8) (((cfg1.win 0).blk t).view.emb j)
    = positivePart (V c main_v8) (((cfg1.win 1).blk t).view.emb j)
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 128 + 1 * (j 1).val = win1_1.index t (1 : Fin 2) * 128 + 1 * (j 1).val; omega
  rw [h0]

/-- An index of the result array lies in point t's block iff each coordinate lies in the block's range. -/
theorem mem_block (t : Fin cfg1.N) (i : S100000x128.Idx) :
    i ∈ ((cfg1.win 1).blk t).view.set ↔ ∀ a : Fin 2, win1_1.index t a * S5000x128.size a ≤ (i a).val ∧ (i a).val < win1_1.index t a * S5000x128.size a + S5000x128.size a := by
  show i ∈ ((View.whole main_v9).slice (win1_1.rect t)).set ↔ _
  rw [View.set_slice_whole, Rect.mem_set_unit]
  exact Iff.rfl

/-- Every entry of the result array is written back by the point of its row block, row / 5000. -/
theorem covered (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  obtain ⟨t, ht⟩ := every_block ⟨(i 0).val / 5000, by omega⟩
  have q0 : win1_1.index t (0 : Fin 2) = (i 0).val / 5000 := congrFun ht 0
  have q1 : win1_1.index t (1 : Fin 2) = 0 := congrFun ht 1
  refine ⟨t, flush1_1 t, ?_⟩
  rw [mem_block]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 128 ≤ (i 1).val ∧ (i 1).val < win1_1.index t (1 : Fin 2) * 128 + 128; omega

/-- THE ARRAY THE SECOND CALL LEAVES: the positive part of the array it finds. -/
theorem result (c : Dev nD) : (dat1 V c).arrAt 1 cfg1.N = positivePart (V c main_v8) :=
  (dat1 V c).arrAt_eq_of_cover 1 _ (fun t _ => written_back V c t) covered

end Region

end Cert.KernelIdeal.Activation

end
-- ==== Proof.LibTakeFill.lean ====
/-
  General facts about a row gather that fills out-of-range rows (`jnp.take` in its default mode), for indices that are
  in range.

  Such a take lowers to: wrap negative indices (`select (w < 0) (w + n) w`), gather with the wrapped indices, and select
  between the gathered rows and a fill row by the mask "0 ≤ wrapped index ≤ n − 1", reduced by `and` over the index
  vector's one component and broadcast along the row. When every index is in range the wrap is the identity, every mask
  bit is one, and the select returns the gathered rows.
-/
import Idealize.ShloMosaic.Lib.Pipeline.Value
import Idealize.ShloMosaic.Lib.ValueIdx
import Idealize.ShloMosaic.Lib.Affine
import Idealize.ShloMosaic.PureOps.Reduce

noncomputable section

namespace Cert.LibTakeFill

open Idealize.ShloMosaic Idealize.ShloMosaic.ValueIdx

/-- A left fold by `and` from 1 over bits that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

/-- A reduction by `and` from 1 of a mask whose bits are all 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_of_all x _ fun n _ => hx n

/-- A select whose mask is 1 everywhere is its first branch. -/
theorem select_of_all_one {S : Shape} {α : Type} (M : IVec S 1) (G Fill : S.Idx → α) (hM : ∀ i, M i = 1#1) :
    select M G Fill = G :=
  funext fun i => by rw [select_apply, hM i, select_one]

/-- THE FILLING SELECT: with every index between its bounds, the rows gathered are what the select returns. -/
theorem take_fill_eq {n d : Nat} {α : Type} (idx lo hi : IVec ⟨2, ![n, 1]⟩ 32) (one : IVec ⟨0, ![]⟩ 1)
    (hred : (⟨2, ![n, 1]⟩ : Shape).ReducesTo ([1] : List (Fin 2)) ⟨1, ![n]⟩) (hu : 0 < (⟨0, ![]⟩ : Shape).numel)
    (hb : (⟨1, ![n]⟩ : Shape).BroadcastsInDim ⟨2, ![n, d]⟩ ![0]) (G Fill : (⟨2, ![n, d]⟩ : Shape).Idx → α)
    (hlo : ∀ i, IntOp.cmpi .sge (idx i) (lo i) = 1#1) (hhi : ∀ i, IntOp.cmpi .sle (idx i) (hi i) = 1#1)
    (hone : one (Shape.Idx.first hu) = 1#1) :
    select (broadcastInDim ⟨2, ![n, d]⟩ ![0] hb
      (Host.reduce IntOp.andi (andi (cmpi .sge idx lo) (cmpi .sle idx hi)) one hred hu)) G Fill = G := by
  refine select_of_all_one _ _ _ fun i => ?_
  refine (broadcastInDim_apply _ hb _ i (ix1 (i 0)) (fun a => by
    match a with
    | ⟨0, _⟩ =>
      show (i 0).val = if n = 1 then 0 else (i 0).val
      have hi0 : (i 0).val < n := (i 0).isLt
      split
      · omega
      · rfl)).trans ?_
  refine reduce_andi_of_all _ _ hred hu (fun i' => ?_) hone _
  show IntOp.andi (IntOp.cmpi .sge (idx i') (lo i')) (IntOp.cmpi .sle (idx i') (hi i')) = 1#1
  rw [hlo i', hhi i']
  decide

/-- The wrap of negative indices leaves a nonnegative index alone. -/
theorem wrap_of_nonneg (w n : BitVec 32) (h : IntOp.cmpi .sge w 0#32 = 1#1) :
    Scalar.select (IntOp.cmpi .slt w 0#32) (IntOp.addi w n) w = w := by
  have h0 : IntOp.cmpi .slt w 0#32 = 0#1 := by
    refine eq_zero_of_ne_one fun e => ?_
    have h1 := IntOp.cmpi_sge.1 h
    have h2 := IntOp.cmpi_slt.1 e
    omega
  rw [h0, select_zero]

/-- Below `n` is at most `n − 1`, read signed. -/
theorem sle_pred_of_slt (w n p : BitVec 32) (h : IntOp.cmpi .slt w n = 1#1) (hp : n.toInt = p.toInt + 1) :
    IntOp.cmpi .sle w p = 1#1 := by
  rw [IntOp.cmpi_sle]
  have h1 := IntOp.cmpi_slt.1 h
  omega

end Cert.LibTakeFill

end
-- ==== Proof.Edges.lean ====
/-
  The edge stage of the kernel program, as pure functions of the projected features and the edge table. Between its two
  pipelined calls the program reads the two rows of the edge table (targets, sources), wraps negative source indices by
  the number of nodes, gathers the projected row of every edge's source (a gather that fills with a NaN row wherever the
  wrapped index falls outside 0 … 99999), and adds every gathered row into the row of the edge's target, from zero.

  When every source index s satisfies -100000 ≤ s < 100000 the wrapped index lies in 0 … 99999, no row is filled, and
  the filling gather is the plain gather.
-/
import proofs.«410903_j59081570123777_1_alg».proof.Proof.Gen.KernelIdeal.Frame
import proofs.«410903_j59081570123777_1_alg».proof.Proof.LibTakeFill
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.Affine

set_option maxRecDepth 16384

noncomputable section

namespace Cert.KernelIdeal.Edges

open Cert.KernelIdeal Cert.KernelIdeal.Gen Idealize.ShloMosaic Idealize.ShloMosaic.TcCoe Idealize.ShloMosaic.ValueIdx
open Idealize.SL.Sem

variable {F : FTy → Type} [FloatOps F]

/-- Row 0 of the edge table: the target node of every edge. -/
def targets (adj : IVec S2x640000 32) : IVec S640000 32 :=
  shapeCast S640000 (extractStridedSlice S1x640000 ![0, 0] adj slices_S2x640000_S1x640000_0_0) shapeCasts_S1x640000_S640000

/-- Row 1 of the edge table: the source node of every edge. -/
def sources (adj : IVec S2x640000 32) : IVec S640000 32 :=
  shapeCast S640000 (extractStridedSlice S1x640000 ![1, 0] adj slices_S2x640000_S1x640000_1_0) shapeCasts_S1x640000_S640000

/-- Source indices with the negative ones wrapped by the number of nodes. -/
def wrapped (s : IVec S640000 32) : IVec S640000 32 :=
  select (cmpi .slt s (broadcastInDim S640000 ![] bcast_S_S640000 (constantI S_ 32 0#32)))
    (addi s (broadcastInDim S640000 ![] bcast_S_S640000 (constantI S_ 32 100000#32))) s

/-- The wrapped source indices as the gather's column of start indices. -/
def startIdx (s : IVec S640000 32) : IVec S640000x1 32 :=
  broadcastInDim S640000x1 ![0] bcast_S640000_S640000x1_0 (wrapped s)

/-- The mask "0 ≤ wrapped index ≤ 99999" of every edge, spread along the feature axis. -/
def inRange (s : IVec S640000 32) : IVec S640000x128 1 :=
  broadcastInDim S640000x128 ![0] bcast_S640000_S640000x128_0
    (Host.reduce IntOp.andi
      (andi (cmpi .sge (startIdx s) (broadcastInDim S640000x1 ![] bcast_S_S640000x1 (constantI S_ 32 0#32)))
        (cmpi .sle (startIdx s) (broadcastInDim S640000x1 ![0, 1] bcast_S1x1_S640000x1_0_1
          (broadcastInDim S1x1 ![1] bcast_S1_S1x1_1 (constantI S1 32 99999#32)))))
      (constantI S_ 1 1#1) reducesTo_S640000x1_S640000_d1 h_S_)

/-- The plain gather of the source rows. -/
def gathered (sup : FVec F S100000x128 .f32) (s : IVec S640000 32) : FVec F S640000x128 .f32 :=
  Host.gather gather_S100000x128_S640000x1_S640000x128_1_0_n_n_0_1_1128 sup (startIdx s)

/-- The filling gather: the gathered row where the mask is set, a NaN row elsewhere. -/
def taken (sup : FVec F S100000x128 .f32) (s : IVec S640000 32) : FVec F S640000x128 .f32 :=
  select (inRange s) (gathered sup s)
    (broadcastInDim S640000x128 ![] bcast_S_S640000x128 (constant S_ .f32 0x7FC00000#32))

/-- Every edge's row added into its target's row, from zero. -/
def summed (g : FVec F S640000x128 .f32) (t : IVec S640000 32) : FVec F S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 t) g

/-! ## The program's operations between its two calls compute these

Three stretches of operations lie between the calls: the two rows of the edge table are cut out; the filling gather is
computed from the source row; the sum into the target rows is computed from the gathered rows and the target row. Each
is read at an arbitrary valuation of the buffers it starts from. -/

section Stretches
variable (X : Valuation τ sig (Elt F))

/-- The first stretch leaves the target row of the edge table in its buffer, -/
theorem stretch1_targets : StableHlo.after hostOps1 X (Proc.devRef .tc main_v2) = targets (X (Proc.devRef .tc main_arg1)) := by
  dsimp only [hostOps1]
  after_results
  rfl
/-- the source row in its buffer, -/
theorem stretch1_sources : StableHlo.after hostOps1 X (Proc.devRef .tc main_v4) = sources (X (Proc.devRef .tc main_arg1)) := by
  dsimp only [hostOps1]
  after_results
  rfl
/-- and the projected features where they were. -/
theorem stretch1_projected : StableHlo.after hostOps1 X (Proc.devRef .tc main_v0) = X (Proc.devRef .tc main_v0) := by
  dsimp only [hostOps1]
  after_results

set_option maxHeartbeats 4000000 in
/-- The second stretch computes the filling gather of the projected features by the source row, -/
theorem stretch2_taken : StableHlo.after hostOps1_1 X (Proc.devRef .tc main_v5)
    = taken (X (Proc.devRef .tc main_v0)) (X (Proc.devRef .tc main_v4)) := by
  dsimp only [hostOps1_1]
  after_results_simp
  simp only [StableHlo.TRef.toBuf, StableHlo.TRef.ofBuf, cast_eq]
  rfl
set_option maxHeartbeats 4000000 in
/-- and leaves the target row where it was. -/
theorem stretch2_targets : StableHlo.after hostOps1_1 X (Proc.devRef .tc main_v2) = X (Proc.devRef .tc main_v2) := by
  dsimp only [hostOps1_1]
  after_results_simp

/-- The third stretch adds the gathered rows into their targets' rows. -/
theorem stretch3_summed : StableHlo.after hostOps1_2 X (Proc.devRef .tc main_v8)
    = summed (X (Proc.devRef .tc main_v5)) (X (Proc.devRef .tc main_v2)) := by
  dsimp only [hostOps1_2]
  after_results
  rfl

end Stretches

section Between
variable (m : (ℓ : Loc nD τ sig) → Buf (Elt F) ℓ) (ρ : Dev nD → PrngReg)

/-- The array the second call finds at its input is the sum over edges of the filling gather of the array the first
    call left, by the edge table as the first call left it. -/
theorem second_call_input (c : Dev nD) :
    W4 m ρ c (Proc.devRef .tc main_v8)
      = summed (taken (W1 m ρ c (Proc.devRef .tc main_v0)) (sources (W1 m ρ c (Proc.devRef .tc main_arg1))))
          (targets (W1 m ρ c (Proc.devRef .tc main_arg1))) := by
  show StableHlo.after hostOps1_2 (StableHlo.after hostOps1_1 (StableHlo.after hostOps1 (W1 m ρ c))) (Proc.devRef .tc main_v8) = _
  rw [stretch3_summed, stretch2_taken, stretch2_targets, stretch1_targets, stretch1_sources, stretch1_projected]

/-- The first call does not touch the edge table. -/
theorem edge_table_kept (c : Dev nD) : W1 m ρ c (Proc.devRef .tc main_arg1) = m ((c : Thread nD τ).loc main_arg1) :=
  W1_of_ne m ρ c main_arg1 (by decide)

end Between

/-! ## In-range sources: no row is filled -/

/-- A source index between -100000 and 99999, wrapped, is at least 0. -/
theorem wrap_nonneg (w : BitVec 32) (hlo : IntOp.cmpi .sge w 4294867296#32 = 1#1) (hhi : IntOp.cmpi .slt w 100000#32 = 1#1) :
    IntOp.cmpi .sge (Scalar.select (IntOp.cmpi .slt w 0#32) (IntOp.addi w 100000#32) w) 0#32 = 1#1 := by
  have h1 := IntOp.cmpi_sge.1 hlo
  have h2 := IntOp.cmpi_slt.1 hhi
  have e1 : (4294867296#32 : BitVec 32).toInt = -100000 := by decide
  have e2 : (100000#32 : BitVec 32).toInt = 100000 := by decide
  have e0 : (0#32 : BitVec 32).toInt = 0 := by decide
  rw [e1] at h1; rw [e2] at h2
  by_cases hneg : IntOp.cmpi .slt w 0#32 = 1#1
  · rw [hneg, select_one, IntOp.cmpi_sge, e0]
    have h3 := IntOp.cmpi_slt.1 hneg
    rw [e0] at h3
    show 0 ≤ (w + 100000#32).toInt
    rw [BitVec.toInt_add, e2, Int.bmod_eq_of_le_mul_two (by omega) (by omega)]
    omega
  · rw [eq_zero_of_ne_one hneg, select_zero, IntOp.cmpi_sge, e0]
    have h3 : ¬ w.toInt < (0#32 : BitVec 32).toInt := fun h => hneg (IntOp.cmpi_slt.2 h)
    rw [e0] at h3
    omega

/-- … and at most 99999. -/
theorem wrap_le (w : BitVec 32) (hlo : IntOp.cmpi .sge w 4294867296#32 = 1#1) (hhi : IntOp.cmpi .slt w 100000#32 = 1#1) :
    IntOp.cmpi .sle (Scalar.select (IntOp.cmpi .slt w 0#32) (IntOp.addi w 100000#32) w) 99999#32 = 1#1 := by
  have h1 := IntOp.cmpi_sge.1 hlo
  have h2 := IntOp.cmpi_slt.1 hhi
  have e1 : (4294867296#32 : BitVec 32).toInt = -100000 := by decide
  have e2 : (100000#32 : BitVec 32).toInt = 100000 := by decide
  have e0 : (0#32 : BitVec 32).toInt = 0 := by decide
  have e9 : (99999#32 : BitVec 32).toInt = 99999 := by decide
  rw [e1] at h1; rw [e2] at h2
  by_cases hneg : IntOp.cmpi .slt w 0#32 = 1#1
  · rw [hneg, select_one, IntOp.cmpi_sle, e9]
    have h3 := IntOp.cmpi_slt.1 hneg
    rw [e0] at h3
    show (w + 100000#32).toInt ≤ 99999
    rw [BitVec.toInt_add, e2, Int.bmod_eq_of_le_mul_two (by omega) (by omega)]
    omega
  · rw [eq_zero_of_ne_one hneg, select_zero, IntOp.cmpi_sle, e9]
    omega

/-- The start index of edge e is the wrap of its source index. -/
theorem startIdx_apply (s : IVec S640000 32) (i : S640000x1.Idx) :
    startIdx s i = Scalar.select (IntOp.cmpi .slt (s (ix1 (i 0))) 0#32)
      (IntOp.addi (s (ix1 (i 0))) 100000#32) (s (ix1 (i 0))) := by
  unfold startIdx
  refine (broadcastInDim_apply _ bcast_S640000_S640000x1_0 _ i (ix1 (i 0)) (fun a => by
    match a with
    | ⟨0, _⟩ => rfl)).trans ?_
  rfl

/-- With every source index between -100000 and 99999 the filling gather is the plain gather. -/
theorem taken_eq_gathered (sup : FVec F S100000x128 .f32) (s : IVec S640000 32)
    (h : ∀ k : S640000.Idx, IntOp.cmpi .sge (s k) 4294867296#32 = 1#1 ∧ IntOp.cmpi .slt (s k) 100000#32 = 1#1) :
    taken sup s = gathered sup s := by
  unfold taken inRange
  refine Cert.LibTakeFill.take_fill_eq (n := 640000) (d := 128) (startIdx s) _ _ (constantI S_ 1 1#1)
    reducesTo_S640000x1_S640000_d1 h_S_ bcast_S640000_S640000x128_0 _ _ (fun i => ?_) (fun i => ?_) rfl
  · rw [startIdx_apply]
    exact wrap_nonneg _ (h _).1 (h _).2
  · rw [startIdx_apply]
    exact wrap_le _ (h _).1 (h _).2

end Cert.KernelIdeal.Edges

end
-- ==== Proof.Spec.lean ====
/-
  The whole computation as one function of the three arguments: project every node's features by the weight matrix,
  gather the projected row of every edge's source node, add every gathered row into the row of the edge's target
  node, and take the entrywise maximum with zero.
-/
import proofs.«410903_j59081570123777_1_alg».proof.Proof.Projection
import proofs.«410903_j59081570123777_1_alg».proof.Proof.Activation
import proofs.«410903_j59081570123777_1_alg».proof.Proof.Edges

set_option maxRecDepth 16384

noncomputable section

namespace Cert.KernelIdeal.Spec

open Cert.KernelIdeal Idealize.ShloMosaic

/-- relu (Σ over edges (i, j) of (X·W) row j, into row i). -/
def graphConv (x : Vec Ideal S100000x128 .f32) (adj : IVec S2x640000 32) (w : Vec Ideal S128x128 .f32) :
    Vec Ideal S100000x128 .f32 :=
  Activation.positivePart
    (Edges.summed (F := Ideal) (Edges.gathered (F := Ideal) (Projection.product x w) (Edges.sources adj)) (Edges.targets adj))

end Cert.KernelIdeal.Spec

end
-- ==== Proof.KernelValue.lean ====
/-
  The value of the kernel program's result. The second call leaves the positive part of its input; its input is the
  sum over edges of the filling gather of what the first call left, by the edge table, which the first call does not
  touch; the first call leaves the product of the first and third arguments. With every source index between -100000
  and 99999 the filling gather is the plain gather, so the result is the graph convolution of the arguments.
-/
import proofs.«410903_j59081570123777_1_alg».proof.Proof.Spec

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The array the first call leaves at its output is the product of the first and third arguments. -/
theorem projected (c : Dev nD) :
    W1 m ρ c (Proc.devRef .tc main_v0)
      = Projection.product (m ((c : Thread nD τ).loc main_arg0)) (m ((c : Thread nD τ).loc main_arg2)) :=
  (W1_arr m ρ c 2).trans (Projection.result (V0 m ρ) c)

/-- The result buffer after the run, when every source index is in range. -/
theorem result_value (c : Dev nD)
    (h : ∀ k : S640000.Idx, IntOp.cmpi .sge (Edges.sources (m ((c : Thread nD τ).loc main_arg1)) k) 4294867296#32 = 1#1
      ∧ IntOp.cmpi .slt (Edges.sources (m ((c : Thread nD τ).loc main_arg1)) k) 100000#32 = 1#1) :
    W5 m ρ c (Proc.devRef .tc main_v9)
      = Spec.graphConv (m ((c : Thread nD τ).loc main_arg0)) (m ((c : Thread nD τ).loc main_arg1)) (m ((c : Thread nD τ).loc main_arg2)) := by
  refine ((W5_arr m ρ c 1).trans (Activation.result (V4 m ρ) c)).trans ?_
  show Activation.positivePart (W4 m ρ c (Proc.devRef .tc main_v8)) = _
  rw [Edges.second_call_input m ρ c, Edges.edge_table_kept m ρ c, Edges.taken_eq_gathered _ _ h, projected m ρ c]
  rfl

end Cert.KernelIdeal.KernelValue

end
-- ==== Proof.RefValue.lean ====
/-
  The value of the reference program's result. Its operations are, one for one, those of the graph convolution: the
  matrix product of the first and third arguments (over the extended reals the sum over the contracted coordinate),
  the gather of the source rows by the wrapped source indices, the sum into the target rows from zero, and the
  entrywise maximum with a broadcast zero.
-/
import proofs.«410903_j59081570123777_1_alg».proof.Proof.Spec
import proofs.«410903_j59081570123777_1_alg».proof.Proof.Gen.ReferenceIdeal.Read

set_option maxRecDepth 16384

noncomputable section

namespace Cert.ReferenceIdeal.RefValue

open Cert.ReferenceIdeal Cert.ReferenceIdeal.Gen Idealize.ShloMosaic Idealize.ShloMosaic.ValueIdx
open scoped BigOperators

/-- The reference's matrix product is the product X·W, entry by entry. -/
theorem dot_is_product (x0 : Vec Ideal S100000x128 .f32) (x2 : Vec Ideal S128x128 .f32) :
    Read.val_main_v0 (F := Ideal) x0 x2 = Cert.KernelIdeal.Projection.product x0 x2 := by
  funext i
  refine (Read.val_main_v0_apply x0 x2 i).trans ?_
  show _ = ∑ k : Fin 128, x0 (ix2 (i 0) k) * x2 (ix2 k (i 1))
  refine Finset.sum_congr rfl fun k _ => ?_
  have el : Read.lidx_main_v0 i k = ix2 (i 0) k := funext fun a => Fin.ext (by
    match a with
    | ⟨0, _⟩ => rfl
    | ⟨1, _⟩ => rfl)
  have er : Read.ridx_main_v0 i k = ix2 k (i 1) := funext fun a => Fin.ext (by
    match a with
    | ⟨0, _⟩ => rfl
    | ⟨1, _⟩ => rfl)
  rw [el, er]
  rfl

/-- The maximum with a broadcast zero is the positive part. -/
theorem max_zero_is_positivePart (v : FVec Ideal S100000x128 .f32) :
    maximumf v (Read.val_main_call0_v0 (F := Ideal))
      = (Cert.KernelIdeal.Activation.positivePart v : FVec Ideal S100000x128 .f32) := by
  funext i
  rfl

/-- THE REFERENCE'S RESULT is the graph convolution of its arguments. -/
theorem reference_value (x0 : Vec Ideal S100000x128 .f32) (x1 : IVec S2x640000 32) (x2 : Vec Ideal S128x128 .f32) :
    Read.val_main_v15 (F := Ideal) x0 x1 x2 = Cert.KernelIdeal.Spec.graphConv x0 x1 x2 := by
  unfold Read.val_main_v15
  rw [max_zero_is_positivePart]
  unfold Read.val_main_v14 Read.val_main_v11
  rw [dot_is_product]
  rfl

end Cert.ReferenceIdeal.RefValue

end
-- ==== Proof.lean ====
/-
  A graph convolution: out = relu (Σ over edges (i, j) of (X·W) row j, added into row i). The kernel program computes
  X·W by a pipelined call over twenty blocks of 5000 rows, gathers and sums on the host side, and applies the maximum
  with zero by a second pipelined call; the reference computes the same four steps as whole-array operations.

  The kernel's gather fills a row with NaN where the (wrapped) source index falls outside 0 … 99999, the reference's
  does not; under the precondition every source index s satisfies -100000 ≤ s < 100000, the wrapped index is in range,
  and no row is filled. Over the extended reals both programs then end at the one function `Spec.graphConv` of the
  arguments: the blockwise product is the product (Projection), the blockwise maximum is the maximum (Activation), the
  host stretches between the calls are the gather and the sum (Edges), and the reference's operations are the same
  four (RefValue). The three frames are the generated ones; the idealization rewrote nothing.
-/
import proofs.«410903_j59081570123777_1_alg».proof.Defs
import proofs.«410903_j59081570123777_1_alg».proof.Proof.Gen.Kernel
import proofs.«410903_j59081570123777_1_alg».proof.Proof.Gen.Kernel.Skeleton
import proofs.«410903_j59081570123777_1_alg».proof.Proof.Gen.Kernel.Launch
import proofs.«410903_j59081570123777_1_alg».proof.Proof.Gen.Kernel.Points
import proofs.«410903_j59081570123777_1_alg».proof.Proof.Gen.Kernel.Frame
import proofs.«410903_j59081570123777_1_alg».proof.Proof.Gen.KernelIdeal
import proofs.«410903_j59081570123777_1_alg».proof.Proof.Gen.KernelIdeal.Skeleton
import proofs.«410903_j59081570123777_1_alg».proof.Proof.Gen.KernelIdeal.Launch
import proofs.«410903_j59081570123777_1_alg».proof.Proof.Gen.KernelIdeal.Points
import proofs.«410903_j59081570123777_1_alg».proof.Proof.Gen.KernelIdeal.Frame
import proofs.«410903_j59081570123777_1_alg».proof.Proof.Gen.ReferenceIdeal
import proofs.«410903_j59081570123777_1_alg».proof.Proof.Gen.ReferenceIdeal.Run
import proofs.«410903_j59081570123777_1_alg».proof.Proof.Gen.ReferenceIdeal.Read
import proofs.«410903_j59081570123777_1_alg».proof.Proof.Gen.Pre_finite_inputs
import proofs.«410903_j59081570123777_1_alg».proof.Proof.NamedRun
import proofs.«410903_j59081570123777_1_alg».proof.Proof.PreDecode
import proofs.«410903_j59081570123777_1_alg».proof.Proof.KernelValue
import proofs.«410903_j59081570123777_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the graph convolution of the (agreeing) arguments. -/
theorem algebraic : Cert.algebraic_KernelIdeal_ReferenceIdeal := by
  intro m ρ m' ρ' hpre hagree
  refine ⟨fun c => Cert.KernelIdeal.Spec.graphConv
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Named.run (F := Ideal) m ρ)
    exact Cert.KernelIdeal.KernelValue.result_value m ρ c
      (fun k => Cert.Pre_finite_inputs.Decode.sources_in_range _ _ _ (hpre c) k)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefValue.reference_value,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
